-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S3x2048 : Shape := ⟨2, ![3, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S3x2048 : S_.BroadcastsInDim S3x2048 (![] : Fin 0 → Fin S3x2048.rank)
  reducesTo_S3x2048_S_d0_1 : S3x2048.ReducesTo [0, 1] S_

variable [Facts]

def fn {F : FTy → Type} [FloatOps F] (main_arg0 : FVec F S16384x2048 .f32) (main_arg1 : IVec S16384 32) (main_arg2 : FVec F S3x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S3x2048 .f32 := Host.absf main_arg2
  let main_cst_0 : FVec F S_ .f32 := constant S_ .f32 0x7F800000#32
  let main_v5 : FVec F S3x2048 .f32 := broadcastInDim S3x2048 ![] bcast_S_S3x2048 main_cst_0
  let main_v6 : IVec S3x2048 1 := cmpf .olt main_v4 main_v5
  let main_c_1 : IVec S_ 1 := constantI S_ 1 1#1
  let main_v7 : IVec S_ 1 := (fun x v => Host.reduce IntOp.andi x v reducesTo_S3x2048_S_d0_1 h_S_) main_v6 main_c_1
  let main_v8 : IVec S_ 1 := andi main_v3 main_v7
  main_v8
-- ==== Kernel.lean ====
abbrev S16384x2048 : Shape := ⟨2, ![16384, 2048]⟩
abbrev S16384 : Shape := ⟨1, ![16384]⟩
abbrev S3x2048 : Shape := ⟨2, ![3, 2048]⟩
abbrev S16384x1 : Shape := ⟨2, ![16384, 1]⟩
abbrev S64x128 : Shape := ⟨2, ![64, 128]⟩
abbrev S2048x2048 : Shape := ⟨2, ![2048, 2048]⟩
abbrev S2048x1 : Shape := ⟨2, ![2048, 1]⟩
abbrev S8x128 : Shape := ⟨2, ![8, 128]⟩
abbrev S2048 : Shape := ⟨1, ![2048]⟩
abbrev S2048x3 : Shape := ⟨2, ![2048, 3]⟩
abbrev S3 : Shape := ⟨1, ![3]⟩
abbrev S1x3 : Shape := ⟨2, ![1, 3]⟩
abbrev S1x2048x3 : Shape := ⟨3, ![1, 2048, 3]⟩
abbrev S1 : Shape := ⟨1, ![1]⟩
abbrev S1x1x1 : Shape := ⟨3, ![1, 1, 1]⟩
abbrev S_ : Shape := ⟨0, ![]⟩
abbrev S1x2048 : Shape := ⟨2, ![1, 2048]⟩

abbrev nBuf : Space → Nat
  | .hbm => 64
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S3x2048, .f32⟩
  | .hbm, ⟨3, _⟩ => ⟨S16384x1, .i32⟩
  | .hbm, ⟨4, _⟩ => ⟨S64x128, .f32⟩
  | .hbm, ⟨5, _⟩ => ⟨S_, .f32⟩
  | .hbm, ⟨6, _⟩ => ⟨S_, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x2048, .f32⟩
  | .hbm, ⟨42, _⟩ => ⟨S2048, .f32⟩
  | .hbm, ⟨43, _⟩ => ⟨S1x2048, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .local _ .vmem, ⟨0, _⟩ => ⟨S2048x2048, .f32⟩
  | .local _ .vmem, ⟨1, _⟩ => ⟨S2048x2048, .f32⟩
  | .local _ .vmem, ⟨2, _⟩ => ⟨S2048x1, .i32⟩
  | .local _ .vmem, ⟨3, _⟩ => ⟨S2048x1, .i32⟩
  | .local _ .vmem, ⟨4, _⟩ => ⟨S3x2048, .f32⟩
  | .local _ .vmem, ⟨5, _⟩ => ⟨S8x128, .f32⟩
  | .local _ .vmem, ⟨6, _⟩ => ⟨S8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384_S16384x1 : S16384.ShapeCasts S16384x1
  inb_S2048x2048_S2048x2048_0_0 : ∀ a, (![0, 0] : Fin 2 → Nat) a + S2048x2048.size a ≤ S2048x2048.size a
  h_S2048x2048 : 0 < S2048x2048.numel
  inb_S3x2048_S3x2048_0_0 : ∀ a, (![0, 0] : Fin 2 → Nat) a + S3x2048.size a ≤ S3x2048.size a
  h_S3x2048 : 0 < S3x2048.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x2048_S2048 : S2048x2048.Reduces [1] S2048
  shapeCasts_S2048_S2048x1 : S2048.ShapeCasts S2048x1
  transposes_S3x2048_p1_0_S2048x3 : S3x2048.Transposes [1, 0] S2048x3
  reduces_S3x2048_S3 : S3x2048.Reduces [1] S3
  broadcasts_S2048x1_S2048x3 : S2048x1.Broadcasts S2048x3
  shapeCasts_S3_S1x3 : S3.ShapeCasts S1x3
  broadcasts_S1x3_S2048x3 : S1x3.Broadcasts S2048x3
  iota_S2048x3_d1_w32 : S2048x3.Iotas .tc 32 [1]
  natLt_1_32 : 1 < 32
  shapeCasts_S2048x3_S1x2048x3 : S2048x3.ShapeCasts S1x2048x3
  reduces_S1x2048x3_S1 : S1x2048x3.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  h_S_ : 0 < S_.numel
  slices_S3x2048_S1x2048_0_0 : S3x2048.Slices ![0, 0] S1x2048
  shapeCasts_S1x2048_S2048 : S1x2048.ShapeCasts S2048
  slices_S3x2048_S1x2048_1_0 : S3x2048.Slices ![1, 0] S1x2048
  reducesTo_S2048_S_d0 : S2048.ReducesTo [0] S_
  slices_S3x2048_S1x2048_2_0 : S3x2048.Slices ![2, 0] S1x2048
  dot_S2048x2048_S2048x3_S2048x3_1_0_0_1_n_n_wf : DotDims.WF S2048x2048 S2048x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x2048.size a
  hwx0_0 : ∀ i : grid0.Coords, EltTy.bits .f32 = 32 ∨ (Rect.block (s := S16384x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .i32 = 32 ∨ (Rect.block (s := S16384x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x2048.size a ≤ S3x2048.size a
  hwx0_2 : ∀ i : grid0.Coords, EltTy.bits .f32 = 32 ∨ (Rect.block (s := S3x2048) S3x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x128.size a
  hwx0_3 : ∀ i : grid0.Coords, EltTy.bits .f32 = 32 ∨ (Rect.block (s := S64x128) S8x128.size (cc0_transform_3 i) (hinb0_3 i)).WholeWords (EltTy.packing .f32)

variable [Facts₀]

def dot_S2048x2048_S2048x3_S2048x3_1_0_0_1_n_n : DotDims S2048x2048 S2048x3 S2048x3 where
  lhsContracting := [1]
  rhsContracting := [0]
  lhsNonContracting := [0]
  rhsNonContracting := [1]
  lhsBatch := []
  rhsBatch := []
  wf := dot_S2048x2048_S2048x3_S2048x3_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S3x2048 : Shape := ⟨2, ![3, 2048]⟩
abbrev S16384x1x2048 : Shape := ⟨3, ![16384, 1, 2048]⟩
abbrev S1x3x2048 : Shape := ⟨3, ![1, 3, 2048]⟩
abbrev S16384x3x2048 : Shape := ⟨3, ![16384, 3, 2048]⟩
abbrev S_ : Shape := ⟨0, ![]⟩
abbrev S16384x3 : Shape := ⟨2, ![16384, 3]⟩
abbrev S16384x1 : Shape := ⟨2, ![16384, 1]⟩
abbrev S1x3 : Shape := ⟨2, ![1, 3]⟩
abbrev S1x2048 : Shape := ⟨2, ![1, 2048]⟩
abbrev S2048 : Shape := ⟨1, ![2048]⟩

abbrev nBuf : Space → Nat
  | .hbm => 77
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S3x2048, .f32⟩
  | .hbm, ⟨3, _⟩ => ⟨S16384x1x2048, .f32⟩
  | .hbm, ⟨4, _⟩ => ⟨S1x3x2048, .f32⟩
  | .hbm, ⟨5, _⟩ => ⟨S16384x3x2048, .f32⟩
  | .hbm, ⟨6, _⟩ => ⟨S16384x3x2048, .f32⟩
  | .hbm, ⟨7, _⟩ => ⟨S16384x3x2048, .f32⟩
  | .hbm, ⟨8, _⟩ => ⟨S16384x3x2048, .f32⟩
  | .hbm, ⟨9, _⟩ => ⟨S_, .f32⟩
  | .hbm, ⟨10, _⟩ => ⟨S16384x3, .f32⟩
  | .hbm, ⟨11, _⟩ => ⟨S16384x1, .i32⟩
  | .hbm, ⟨12, _⟩ => ⟨S1x3, .i32⟩
  | .hbm, ⟨13, _⟩ => ⟨S16384x3, .i32⟩
  | .hbm, ⟨14, _⟩ => ⟨S16384x3, .i32⟩
  | .hbm, ⟨15, _⟩ => ⟨S16384x3, .i1⟩
  | .hbm, ⟨16, _⟩ => ⟨S16384x3, .f32⟩
  | .hbm, ⟨17, _⟩ => ⟨S16384x3, .f32⟩
  | .hbm, ⟨18, _⟩ => ⟨S_, .f32⟩
  | .hbm, ⟨19, _⟩ => ⟨S_, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S2048, .f32⟩
  | .hbm, ⟨25, _⟩ => ⟨S_, .f32⟩
  | .hbm, ⟨26, _⟩ => ⟨S_, .f32⟩
  | .hbm, ⟨27, _⟩ => ⟨S2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x2048, .f32⟩
  | .hbm, ⟨55, _⟩ => ⟨S2048, .f32⟩
  | .hbm, ⟨56, _⟩ => ⟨S1x2048, .f32⟩
  | .hbm, ⟨57, _⟩ => ⟨S2048, .f32⟩
  | .hbm, ⟨58, _⟩ => ⟨S2048, .f32⟩
  | .hbm, ⟨59, _⟩ => ⟨S_, .f32⟩
  | .hbm, ⟨60, _⟩ => ⟨S_, .f32⟩
  | .hbm, ⟨61, _⟩ => ⟨S2048, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S2048, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  bcast_S16384x2048_S16384x1x2048_0_2 : S16384x2048.BroadcastsInDim S16384x1x2048 (![0, 2] : Fin 2 → Fin S16384x1x2048.rank)
  bcast_S3x2048_S1x3x2048_1_2 : S3x2048.BroadcastsInDim S1x3x2048 (![1, 2] : Fin 2 → Fin S1x3x2048.rank)
  bcast_S16384x1x2048_S16384x3x2048_0_1_2 : S16384x1x2048.BroadcastsInDim S16384x3x2048 (![0, 1, 2] : Fin 3 → Fin S16384x3x2048.rank)
  bcast_S1x3x2048_S16384x3x2048_0_1_2 : S1x3x2048.BroadcastsInDim S16384x3x2048 (![0, 1, 2] : Fin 3 → Fin S16384x3x2048.rank)
  reducesTo_S16384x3x2048_S16384x3_d2 : S16384x3x2048.ReducesTo [2] S16384x3
  h_S_ : 0 < S_.numel
  bcast_S16384_S16384x1_0 : S16384.BroadcastsInDim S16384x1 (![0] : Fin 1 → Fin S16384x1.rank)
  bcast_S16384x1_S16384x3_0_1 : S16384x1.BroadcastsInDim S16384x3 (![0, 1] : Fin 2 → Fin S16384x3.rank)
  bcast_S1x3_S16384x3_0_1 : S1x3.BroadcastsInDim S16384x3 (![0, 1] : Fin 2 → Fin S16384x3.rank)
  reducesTo_S16384x3_S_d0_1 : S16384x3.ReducesTo [0, 1] S_
  slices_S3x2048_S1x2048_0_0 : S3x2048.Slices ![0, 0] S1x2048
  shapeCasts_S1x2048_S2048 : S1x2048.ShapeCasts S2048
  slices_S3x2048_S1x2048_1_0 : S3x2048.Slices ![1, 0] S1x2048
  reducesTo_S2048_S_d0 : S2048.ReducesTo [0] S_
  slices_S3x2048_S1x2048_2_0 : S3x2048.Slices ![2, 0] S1x2048

variable [Facts₀]

class Facts : Prop extends Facts₀ where

variable [Facts]
-- ==== Proof.KernelResult.lean ====
/-
  The kernel's program read as a value.

  The region runs eight tiles; tile t writes one 8 × 128 block into rows 8t … 8t + 7 of a 64 × 128 array. So after the
  region that array is the eight blocks stacked (`assembled`), each block the body's payload of the tile's three input
  blocks. The host lines after the region add all entries of the array into one number and add to it the three squared
  cosine terms of the class vectors; those terms are spelt exactly as the reference spells them, so they are carried as
  the reference's own stages and never opened. The run's result is then `tailOf` of the assembled array and the class
  vectors, with the three arguments unchanged.
-/
import proofs.«408974_j22110491639941_3_alg».proof.Proof.Gen.KernelIdeal.Frame
import proofs.«408974_j22110491639941_3_alg».proof.Proof.Gen.ReferenceIdeal.Read
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- What tile t leaves in its block of the result array. -/
def tileBlock (c : Dev nD) (t : Fin cfg0.N) : Vec F S8x128 .f32 :=
  k0_pay1 (iblk m c 0 t) (iblk m c 2 t) (iblk m c 1 t)

/-- The result array assembled from the tiles' blocks: rows 8t … 8t + 7 are tile t's block. -/
def assembled (c : Dev nD) : S64x128.Idx → Elt F .f32 := fun i =>
  tileBlock m c ⟨(i 0).val / 8, by rw [show cfg0.N = 8 from N_0]; have := idx2_lt0 i; omega⟩
    (ix2 ⟨(i 0).val % 8, Nat.mod_lt _ (by decide)⟩ ⟨(i 1).val, idx2_lt1 i⟩)

theorem index_out : ∀ t : Fin cfg0.N, win0_3.index t (0 : Fin 2) = t.val ∧ win0_3.index t (1 : Fin 2) = 0 :=
  (by decide +kernel : ∀ t : Fin grid0.N, _)

theorem flushed_eq (c : Dev nD) (t : Fin cfg0.N) :
    (dats m 0 c).flushed 3 t = ((cfg0.win 3).blk t).view.read (Elt F) (assembled m c) := by
  show (cfg0.win 3).cut (grid0.coords t) ((dats m 0 c).after 3 t) = _
  rw [after0_3]
  unfold out0_3
  rw [View.canon_unit_zero hz]
  simp only [View.ld_unit_zero (S := S2048x2048) hz, View.ld_unit_zero (S := S3x2048) hz, View.ld_unit_zero (S := S2048x1) hz]
  funext j
  show tileBlock m c t j = assembled m c (((cfg0.win 3).blk t).view.emb j)
  obtain ⟨e0, e1⟩ := index_out t
  have h0 : ((((cfg0.win 3).blk t).view.emb j) 0).val = t.val * 8 + (j 0).val := by
    show win0_3.index t (0 : Fin 2) * 8 + 1 * (j 0).val = _
    rw [e0]; omega
  have h1 : ((((cfg0.win 3).blk t).view.emb j) 1).val = (j 1).val := by
    show win0_3.index t (1 : Fin 2) * 128 + 1 * (j 1).val = _
    rw [e1]; omega
  have hj0 : (j 0).val < 8 := (j 0).isLt
  have ht8 : t.val < 8 := lt_of_lt_of_eq t.isLt N_0
  unfold assembled
  have ht : (⟨((((cfg0.win 3).blk t).view.emb j) 0).val / 8, by rw [show cfg0.N = 8 from N_0]; omega⟩ : Fin cfg0.N) = t :=
    Fin.ext (by show ((((cfg0.win 3).blk t).view.emb j) 0).val / 8 = t.val; omega)
  rw [ht]
  refine congrArg (tileBlock m c t) (funext fun a => Fin.ext ?_)
  match a with
  | ⟨0, _⟩ => show (j 0).val = ((((cfg0.win 3).blk t).view.emb j) 0).val % 8; omega
  | ⟨1, _⟩ => show (j 1).val = ((((cfg0.win 3).blk t).view.emb j) 1).val; omega

theorem mem_blk (t : Fin cfg0.N) (i : S64x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v1).slice (win0_3.rect t)).set ↔ _
  rw [View.set_slice_whole, Rect.mem_set_unit]
  exact Iff.rfl

/-- Every row of the result array lies in the block of the tile that owns it. -/
theorem covered (i : S64x128.Idx) : ∃ t : Fin cfg0.N, (cfg0.win 3).flush t = true ∧ i ∈ ((cfg0.win 3).blk t).view.set := by
  have hi0 : (i 0).val < 64 := idx2_lt0 i
  have hi1 : (i 1).val < 128 := idx2_lt1 i
  refine ⟨⟨(i 0).val / 8, by rw [show cfg0.N = 8 from N_0]; omega⟩, flush0_3 _, ?_⟩
  rw [mem_blk]
  obtain ⟨e0, e1⟩ := index_out ⟨(i 0).val / 8, by rw [show cfg0.N = 8 from N_0]; omega⟩
  intro a
  match a with
  | ⟨0, _⟩ => show win0_3.index _ (0 : Fin 2) * 8 ≤ (i 0).val ∧ (i 0).val < win0_3.index _ (0 : Fin 2) * 8 + 8; rw [e0]; show (i 0).val / 8 * 8 ≤ _ ∧ _ < (i 0).val / 8 * 8 + 8; omega
  | ⟨1, _⟩ => show win0_3.index _ (1 : Fin 2) * 128 ≤ (i 1).val ∧ (i 1).val < win0_3.index _ (1 : Fin 2) * 128 + 128; rw [e1]; omega

/-- The result array after the region is the array assembled from the tiles' blocks. -/
theorem final (c : Dev nD) : (dats m 0 c).arrAt 3 cfg0.N = assembled m c :=
  (dats m 0 c).arrAt_eq_of_cover 3 (assembled m c) (fun t _ => flushed_eq m c t) covered

/-- The host lines after the region, as one function of the result array and the class vectors: the array's total
    plus the three squared cosine terms (the latter in the reference's own words). -/
def tailOf (a : FVec F S64x128 .f32) (x2 : FVec F S3x2048 .f32) : FVec F S_ .f32 :=
  addf (addf (addf (Host.reduceAdd a (constant S_ .f32 0x00000000#32) reducesTo_S64x128_S_d0_1 h_S_)
    (Cert.ReferenceIdeal.Read.val_main_v52 (F := F) x2)) (Cert.ReferenceIdeal.Read.val_main_v54 (F := F) x2)) (Cert.ReferenceIdeal.Read.val_main_v56 (F := F) x2)

set_option maxHeartbeats 4000000 in
set_option maxRecDepth 8192 in
theorem tail_eq (c : Dev nD) (W : Valuation τ sig (Elt F)) :
    StableHlo.after hostOps1 W (Proc.devRef .tc main_v50) = tailOf (W (Proc.devRef .tc main_v1)) (W (Proc.devRef .tc main_arg2)) := by
  after_results_simp
  rfl

/-- The program's result: the host lines after the region applied to the assembled array and the class vectors. -/
theorem result_eq (c : Dev nD) :
    Pipeline.afterTail₀ cfgs (dats m) 0 (V0 m) [hostOps1] c main_v50
      = tailOf (assembled m c) (m ((c : Thread nD τ).loc main_arg2)) := by
  unfold Pipeline.afterTail₀
  simp only [List.flatten_cons, List.flatten_nil, List.append_nil]
  refine (tail_eq c _).trans ?_
  have e3 : Pipeline.withArrays (cfgs 0).spec c (V0 m c) (fun w => (dats m 0 c).arrAt w (cfgs 0).N) (Proc.devRef .tc main_v1)
      = (dats m 0 c).arrAt 3 cfg0.N := Pipeline.withArrays_arr spec0 launch0.win.arr_inj c _ _ 3
  have e2 : Pipeline.withArrays (cfgs 0).spec c (V0 m c) (fun w => (dats m 0 c).arrAt w (cfgs 0).N) (Proc.devRef .tc main_arg2)
      = (dats m 0 c).arrAt 2 cfg0.N := Pipeline.withArrays_arr spec0 launch0.win.arr_inj c _ _ 2
  rw [e3, e2, final m c, ((dats m 0 c).arrAt_in 2 rfl _).trans ((A_eq m c 2).trans (V_main_arg2 m c))]

/-- The run, read: the result at the host tail of the assembled array, the arguments unchanged. -/
theorem run : θ_run defs (onTc (τ := τ) (main (F := F))) ⟨m, fun _ => 0, ρ⟩ fun r => ∀ c : Dev nD,
      r.2.mem ((c.tc : Thread nD τ).loc main_v50) = tailOf (assembled m c) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v50 (Pipeline.mem_restRefs_of main_v50 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c)))⟩)
    (run_main m ρ)

end Cert.KernelIdeal.Hand
end
-- ==== Proof.TileTerm.lean ====
/-
  What one tile of 2048 rows contributes.

  The kernel body, read at the extended reals, computes for row b of the tile and class p
      dist(b, p) = (∑_d x(b,d)² − 2·∑_d x(b,d)·s(p,d)) + ∑_d s(p,d)²,
  multiplies it by the indicator mask(b, p) = [pol(b) = p], adds all 2048 × 3 products into one number, and writes that
  number into entry (0, 0) of an 8 × 128 block whose other entries are zero. Here each of these pieces is named, the
  payload is shown to be their composition, each piece is read at an index, and the block's entries are summed.
-/
import proofs.«408974_j22110491639941_3_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open Idealize.ShloMosaic Idealize.ShloMosaic.ValueIdx

namespace Cert.KernelIdeal.Tile

open Cert.KernelIdeal Cert.KernelIdeal.Gen

/-- The squared distance of row b from class vector p, in expanded form. -/
def dist (X : FVec Ideal S2048x2048 .f32) (S : FVec Ideal S3x2048 .f32) : FVec Ideal S2048x3 .f32 :=
  addf
    (subf
      (broadcastTo S2048x3 (shapeCast S2048x1 (multiReduction .add [1] S2048 (mulf X X) 0x00000000#32 reduces_S2048x2048_S2048 (.inl rfl) rfl) shapeCasts_S2048_S2048x1) broadcasts_S2048x1_S2048x3)
      (mulf (broadcast S2048x3 (Scalar.ofBits .f32 0x40000000#32))
        (matmul dot_S2048x2048_S2048x3_S2048x3_1_0_0_1_n_n none X (transpose S2048x3 [1, 0] S transposes_S3x2048_p1_0_S2048x3) (constant S2048x3 .f32 0x00000000#32))))
    (broadcastTo S2048x3 (shapeCast S1x3 (multiReduction .add [1] S3 (mulf S S) 0x00000000#32 reduces_S3x2048_S3 (.inl rfl) rfl) shapeCasts_S3_S1x3) broadcasts_S1x3_S2048x3)

/-- The indicator that row b carries class p. -/
def mask (P : IVec S2048x1 32) : FVec Ideal S2048x3 .f32 :=
  sitofp .f32 (extui 32 (cmpi .eq (broadcastTo S2048x3 (shapeCast S2048x1 P shapeCasts_S2048x1_S2048x1) broadcasts_S2048x1_S2048x3) (iota .tc S2048x3 32 [1] iota_S2048x3_d1_w32)) natLt_1_32)

/-- All entries of a 2048 × 3 array added into one number. -/
def total (V : FVec Ideal S2048x3 .f32) : Ideal .f32 :=
  extractAt ![0, 0, 0] (shapeCast S1x1x1 (multiReduction .add [1, 2] S1 (shapeCast S1x2048x3 V shapeCasts_S2048x3_S1x2048x3) 0x00000000#32 reduces_S1x2048x3_S1 (.inl rfl) rfl) shapeCasts_S1_S1x1x1) inpos_S1x1x1_p0_0_0

/-- The 8 × 128 pattern that is one at entry (0, 0) and zero elsewhere. -/
def slot : FVec Ideal S8x128 .f32 :=
  sitofp .f32 (extui 32 (andi (cmpi .eq (iota .tc S8x128 32 [0] iota_S8x128_d0_w32) (broadcast S8x128 0#32)) (cmpi .eq (iota .tc S8x128 32 [1] iota_S8x128_d1_w32) (broadcast S8x128 0#32))) natLt_1_32)

/-- The body's payload is the tile's total placed on the pattern. -/
theorem pay_eq (X : FVec Ideal S2048x2048 .f32) (S : FVec Ideal S3x2048 .f32) (P : IVec S2048x1 32) :
    k0_pay1 (F := Ideal) X S P = mulf (broadcast S8x128 (total (mulf (dist X S) (mask P)))) slot := rfl

/-- The indicator at row b and class p compares the row's class word with p (the kernel widens the comparison's bit
    before converting it, which reads the same number as converting the bit). -/
theorem mask_apply (P : IVec S2048x1 32) (b : Fin 2048) (p : Fin 3) :
    mask P (ix2 b p) = FloatOps.uitofp (F := Ideal) .f32 (IntOp.cmpi .eq (P (ix2 b (0 : Fin 1))) (BitVec.ofNat 32 p.val)) := by
  unfold mask
  rw [sitofp_extui_eq_uitofp]
  show FloatOps.uitofp (F := Ideal) .f32 (IntOp.cmpi .eq (broadcastTo S2048x3 (shapeCast S2048x1 P shapeCasts_S2048x1_S2048x1) broadcasts_S2048x1_S2048x3 (ix2 b p)) (iota .tc S2048x3 32 [1] iota_S2048x3_d1_w32 (ix2 b p))) = _
  rw [shapeCast_self, iota_single_apply]
  rw [broadcastTo_apply P broadcasts_S2048x1_S2048x3 (ix2 b p) (ix2 b (0 : Fin 1)) (fun a => match a with
    | ⟨0, _⟩ => by show b.val = if (2048 : Nat) = 1 then 0 else b.val; rw [if_neg (by decide)]
    | ⟨1, _⟩ => by show 0 = if (1 : Nat) = 1 then 0 else p.val; rw [if_pos rfl])]

/-- The total is the sum over all entries: the reduction into a one-entry shape adds every entry, and the cast before it
    only re-indexes them. -/
theorem total_eq (V : FVec Ideal S2048x3 .f32) : total V = ∑ i : S2048x3.Idx, V i := by
  unfold total extractAt
  rw [shapeCast_apply _ shapeCasts_S1_S1x1x1 _ (ix1 (0 : Fin 1)) (by
    rw [Shape.rowMajor_val_one, Shape.rowMajor_val_three]; rfl)]
  refine (Ideal.multiReduction_add_total (shapeCast S1x2048x3 V shapeCasts_S2048x3_S1x2048x3) 0x00000000#32 reduces_S1x2048x3_S1
    (fun b => by match b with | ⟨0, _⟩ => rfl) (.inl rfl) rfl (ix1 (0 : Fin 1))).trans ?_
  exact (Shape.reshapeEquiv _).sum_comp V

/-- The pattern's defining comparison, word by word: both coordinates are zero. -/
theorem slot_word : ∀ (r : Fin 8) (l : Fin 128),
    IntOp.andi (IntOp.cmpi .eq (BitVec.ofNat 32 r.val) 0#32) (IntOp.cmpi .eq (BitVec.ofNat 32 l.val) 0#32)
      = if r.val = 0 ∧ l.val = 0 then 1#1 else 0#1 := by decide

/-- The pattern is one at (0, 0) and zero elsewhere. -/
theorem slot_apply (r : Fin 8) (l : Fin 128) :
    slot (ix2 r l) = if r.val = 0 ∧ l.val = 0 then (1 : EReal) else 0 := by
  unfold slot
  rw [sitofp_extui_eq_uitofp]
  show FloatOps.uitofp (F := Ideal) .f32 (IntOp.andi (IntOp.cmpi .eq (iota .tc S8x128 32 [0] iota_S8x128_d0_w32 (ix2 r l)) 0#32) (IntOp.cmpi .eq (iota .tc S8x128 32 [1] iota_S8x128_d1_w32 (ix2 r l)) 0#32)) = _
  rw [iota_single_apply, iota_single_apply]
  show FloatOps.uitofp (F := Ideal) .f32 (IntOp.andi (IntOp.cmpi .eq (BitVec.ofNat 32 r.val) 0#32) (IntOp.cmpi .eq (BitVec.ofNat 32 l.val) 0#32)) = _
  rw [slot_word r l]
  split_ifs
  · show (((1#1 : BitVec 1).toNat : ℝ) : EReal) = 1
    simp
  · show (((0#1 : BitVec 1).toNat : ℝ) : EReal) = 0
    simp

/-- A number placed on the pattern and summed over the block is the number: only entry (0, 0) contributes. -/
theorem slot_sum (a : EReal) : ∑ y : S8x128.Idx, a * slot y = a := by
  rw [sum_idx2, Finset.sum_eq_single (0 : Fin 8), Finset.sum_eq_single (0 : Fin 128)]
  · rw [slot_apply, if_pos ⟨rfl, rfl⟩, mul_one]
  · intro l _ hl
    rw [slot_apply, if_neg (fun h => hl (Fin.ext h.2)), mul_zero]
  · intro h; exact absurd (Finset.mem_univ _) h
  · intro r _ hr
    refine Finset.sum_eq_zero fun l _ => ?_
    rw [slot_apply, if_neg (fun h => hr (Fin.ext h.1)), mul_zero]
  · intro h; exact absurd (Finset.mem_univ _) h

/-- The entries of the block a tile writes add up to the tile's sum of masked distances. -/
theorem pay_sum (X : FVec Ideal S2048x2048 .f32) (S : FVec Ideal S3x2048 .f32) (P : IVec S2048x1 32) :
    ∑ y : S8x128.Idx, k0_pay1 (F := Ideal) X S P y = ∑ b : Fin 2048, ∑ p : Fin 3, dist X S (ix2 b p) * mask P (ix2 b p) := by
  rw [pay_eq]
  show ∑ y : S8x128.Idx, total (mulf (dist X S) (mask P)) * slot y = _
  rw [slot_sum, total_eq, sum_idx2]
  rfl

end Cert.KernelIdeal.Tile

end
-- ==== Proof.TileDistance.lean ====
/-
  The expanded squared distance read at an index: at row b and class p it is
      (∑_d x(b,d)² − 2·∑_d x(b,d)·s(p,d)) + ∑_d s(p,d)²,
  the row's sum of squares (a lane sum kept as a column and laid along the classes), twice the row's product with the
  transposed class vectors (a matrix product into a zero accumulator), and the class vector's sum of squares (a lane
  sum laid as a row along the rows).
-/
import proofs.«408974_j22110491639941_3_alg».proof.Proof.TileTerm

noncomputable section

open Idealize.ShloMosaic Idealize.ShloMosaic.ValueIdx

namespace Cert.KernelIdeal.Tile

open Cert.KernelIdeal Cert.KernelIdeal.Gen

/-- A lane sum of a 2048 × 2048 array at row b is the sum over the row. -/
private theorem rowSum_apply (V : FVec Ideal S2048x2048 .f32) (b : Fin 2048) :
    multiReduction .add [1] S2048 V 0x00000000#32 reduces_S2048x2048_S2048 (.inl rfl) rfl (ix1 b)
      = ∑ k : Fin 2048, V (ix2 b k) := by
  refine (Ideal.multiReduction_add_single V 0x00000000#32 reduces_S2048x2048_S2048 (.inl rfl) rfl (ix1 b)).trans ?_
  refine Finset.sum_congr rfl fun k _ => congrArg V ?_
  funext a
  apply Fin.ext
  match a with
  | ⟨0, _⟩ => rfl
  | ⟨1, _⟩ => rfl

/-- A lane sum of a 3 × 2048 array at row p is the sum over the row. -/
private theorem classSum_apply (V : FVec Ideal S3x2048 .f32) (p : Fin 3) :
    multiReduction .add [1] S3 V 0x00000000#32 reduces_S3x2048_S3 (.inl rfl) rfl (ix1 p)
      = ∑ k : Fin 2048, V (ix2 p k) := by
  refine (Ideal.multiReduction_add_single V 0x00000000#32 reduces_S3x2048_S3 (.inl rfl) rfl (ix1 p)).trans ?_
  refine Finset.sum_congr rfl fun k _ => congrArg V ?_
  funext a
  apply Fin.ext
  match a with
  | ⟨0, _⟩ => rfl
  | ⟨1, _⟩ => rfl

/-- A vector of 2048 entries kept as a column reads, at (b, u), its entry b. -/
private theorem column_apply (v : FVec Ideal S2048 .f32) (b : Fin 2048) (u : Fin 1) :
    shapeCast S2048x1 v shapeCasts_S2048_S2048x1 (ix2 b u) = v (ix1 b) :=
  shapeCast_apply v shapeCasts_S2048_S2048x1 _ _ (by
    have hu : u.val = 0 := by omega
    rw [Shape.rowMajor_val_two, Shape.rowMajor_val_one]
    show b.val = b.val * 1 + u.val
    rw [hu, Nat.mul_one, Nat.add_zero])

/-- A column laid along the three classes reads, at (b, p), the column's entry b. -/
private theorem columnAlong_apply (c : FVec Ideal S2048x1 .f32) (b : Fin 2048) (p : Fin 3) :
    broadcastTo S2048x3 c broadcasts_S2048x1_S2048x3 (ix2 b p) = c (ix2 b (0 : Fin 1)) := by
  refine broadcastTo_apply c broadcasts_S2048x1_S2048x3 (ix2 b p) (ix2 b (0 : Fin 1)) fun a => ?_
  match a with
  | ⟨0, _⟩ =>
    show b.val = if (2048 : Nat) = 1 then 0 else b.val
    rw [if_neg (by decide)]
  | ⟨1, _⟩ =>
    show 0 = if (1 : Nat) = 1 then 0 else p.val
    rw [if_pos rfl]

/-- A vector of three entries kept as a row and laid along the 2048 rows reads, at (b, p), its entry p. -/
private theorem rowAlong_apply (v : FVec Ideal S3 .f32) (b : Fin 2048) (p : Fin 3) :
    broadcastTo S2048x3 (shapeCast S1x3 v shapeCasts_S3_S1x3) broadcasts_S1x3_S2048x3 (ix2 b p) = v (ix1 p) :=
  (broadcastTo_1b_ab_apply (shapeCast S1x3 v shapeCasts_S3_S1x3) broadcasts_S1x3_S2048x3 b p).trans
    (shapeCast_a_1a_apply v shapeCasts_S3_S1x3 (0 : Fin 1) p)

/-- The left operand's row axis reads the result's row. -/
private theorem lhsIdx_row (i : S2048x3.Idx) (q : dot_S2048x2048_S2048x3_S2048x3_1_0_0_1_n_n.contr.Idx) :
    (dot_S2048x2048_S2048x3_S2048x3_1_0_0_1_n_n.lhsIdx i q 0).val = (i 0).val := by
  unfold DotDims.lhsIdx
  rw [dif_neg (show ¬(0 : Fin S2048x2048.rank) ∈ dot_S2048x2048_S2048x3_S2048x3_1_0_0_1_n_n.lhsBatch by decide),
    dif_pos (show (0 : Fin S2048x2048.rank) ∈ dot_S2048x2048_S2048x3_S2048x3_1_0_0_1_n_n.lhsNonContracting by decide)]
  rfl

/-- The left operand's lane axis reads the contraction position. -/
private theorem lhsIdx_lane (i : S2048x3.Idx) (q : dot_S2048x2048_S2048x3_S2048x3_1_0_0_1_n_n.contr.Idx) :
    (dot_S2048x2048_S2048x3_S2048x3_1_0_0_1_n_n.lhsIdx i q 1).val = (q ⟨0, by decide⟩).val :=
  dot_S2048x2048_S2048x3_S2048x3_1_0_0_1_n_n.lhsIdx_val_of_single rfl i q

/-- The right operand's row axis reads the contraction position. -/
private theorem rhsIdx_row (i : S2048x3.Idx) (q : dot_S2048x2048_S2048x3_S2048x3_1_0_0_1_n_n.contr.Idx) :
    (dot_S2048x2048_S2048x3_S2048x3_1_0_0_1_n_n.rhsIdx i q 0).val = (q ⟨0, by decide⟩).val :=
  dot_S2048x2048_S2048x3_S2048x3_1_0_0_1_n_n.rhsIdx_val_of_single rfl i q

/-- The right operand's class axis reads the result's class. -/
private theorem rhsIdx_class (i : S2048x3.Idx) (q : dot_S2048x2048_S2048x3_S2048x3_1_0_0_1_n_n.contr.Idx) :
    (dot_S2048x2048_S2048x3_S2048x3_1_0_0_1_n_n.rhsIdx i q 1).val = (i 1).val := by
  unfold DotDims.rhsIdx
  rw [dif_neg (show ¬(1 : Fin S2048x3.rank) ∈ dot_S2048x2048_S2048x3_S2048x3_1_0_0_1_n_n.rhsBatch by decide),
    dif_pos (show (1 : Fin S2048x3.rank) ∈ dot_S2048x2048_S2048x3_S2048x3_1_0_0_1_n_n.rhsNonContracting by decide)]
  rfl

/-- The product of a 2048 × 2048 array with a 2048 × 3 array, added into zero, reads at (b, p) the sum over the
    shared axis of the products of row b's and column p's entries. -/
private theorem product_apply (A : FVec Ideal S2048x2048 .f32) (B : FVec Ideal S2048x3 .f32) (b : Fin 2048) (p : Fin 3) :
    matmul dot_S2048x2048_S2048x3_S2048x3_1_0_0_1_n_n none A B (constant S2048x3 .f32 0x00000000#32) (ix2 b p)
      = ∑ k : Fin 2048, A (ix2 b k) * B (ix2 k p) := by
  show FloatOps.matmul dot_S2048x2048_S2048x3_S2048x3_1_0_0_1_n_n none A B (constant S2048x3 .f32 0x00000000#32) (ix2 b p) = _
  rw [Ideal.matmul_constant_zero_apply,
    ← Equiv.sum_comp (contrEquiv1 dot_S2048x2048_S2048x3_S2048x3_1_0_0_1_n_n 2048 rfl rfl).symm]
  refine Finset.sum_congr rfl fun k _ => ?_
  have hk := contrEquiv1_symm_val dot_S2048x2048_S2048x3_S2048x3_1_0_0_1_n_n 2048 rfl rfl k
  have el : dot_S2048x2048_S2048x3_S2048x3_1_0_0_1_n_n.lhsIdx (ix2 b p)
      ((contrEquiv1 dot_S2048x2048_S2048x3_S2048x3_1_0_0_1_n_n 2048 rfl rfl).symm k) = ix2 b k :=
    funext fun a => Fin.ext (by
      match a with
      | ⟨0, _⟩ => exact lhsIdx_row _ _
      | ⟨1, _⟩ => exact (lhsIdx_lane _ _).trans hk)
  have er : dot_S2048x2048_S2048x3_S2048x3_1_0_0_1_n_n.rhsIdx (ix2 b p)
      ((contrEquiv1 dot_S2048x2048_S2048x3_S2048x3_1_0_0_1_n_n 2048 rfl rfl).symm k) = ix2 k p :=
    funext fun a => Fin.ext (by
      match a with
      | ⟨0, _⟩ => exact (rhsIdx_row _ _).trans hk
      | ⟨1, _⟩ => exact rhsIdx_class _ _)
  rw [el, er]

/-- The row sums of a 2048 × 2048 array, kept as a column and laid along the classes, read at (b, p) the sum over row b. -/
private theorem rowSumAlong_apply (V : FVec Ideal S2048x2048 .f32) (b : Fin 2048) (p : Fin 3) :
    broadcastTo S2048x3 (shapeCast S2048x1 (multiReduction .add [1] S2048 V 0x00000000#32 reduces_S2048x2048_S2048 (.inl rfl) rfl) shapeCasts_S2048_S2048x1) broadcasts_S2048x1_S2048x3 (ix2 b p)
      = ∑ k : Fin 2048, V (ix2 b k) :=
  (columnAlong_apply _ b p).trans ((column_apply _ b (0 : Fin 1)).trans (rowSum_apply V b))

/-- The row sums of a 3 × 2048 array, kept as a row and laid along the 2048 rows, read at (b, p) the sum over row p. -/
private theorem classSumAlong_apply (V : FVec Ideal S3x2048 .f32) (b : Fin 2048) (p : Fin 3) :
    broadcastTo S2048x3 (shapeCast S1x3 (multiReduction .add [1] S3 V 0x00000000#32 reduces_S3x2048_S3 (.inl rfl) rfl) shapeCasts_S3_S1x3) broadcasts_S1x3_S2048x3 (ix2 b p)
      = ∑ k : Fin 2048, V (ix2 p k) :=
  (rowAlong_apply _ b p).trans (classSum_apply V p)

/-- The rows' products with the transposed class vectors read at (b, p) the sum over d of x(b,d)·s(p,d). -/
private theorem cross_apply (X : FVec Ideal S2048x2048 .f32) (S : FVec Ideal S3x2048 .f32) (b : Fin 2048) (p : Fin 3) :
    matmul dot_S2048x2048_S2048x3_S2048x3_1_0_0_1_n_n none X (transpose S2048x3 [1, 0] S transposes_S3x2048_p1_0_S2048x3) (constant S2048x3 .f32 0x00000000#32) (ix2 b p)
      = ∑ k : Fin 2048, X (ix2 b k) * S (ix2 p k) :=
  (product_apply X _ b p).trans (Finset.sum_congr rfl fun k _ =>
    congrArg (X (ix2 b k) * ·) (transpose_ix2_apply S transposes_S3x2048_p1_0_S2048x3 k p))

/-- The expanded squared distance at row b and class p. -/
theorem dist_apply (X : FVec Ideal S2048x2048 .f32) (S : FVec Ideal S3x2048 .f32) (b : Fin 2048) (p : Fin 3) :
    dist X S (ix2 b p)
      = (∑ d : Fin 2048, X (ix2 b d) * X (ix2 b d) - Ideal.ofBits .f32 0x40000000#32 * ∑ k : Fin 2048, X (ix2 b k) * S (ix2 p k))
        + ∑ d : Fin 2048, S (ix2 p d) * S (ix2 p d) := by
  unfold dist
  exact congrArg₂ (· + ·)
    (congrArg₂ (· - ·) (rowSumAlong_apply (mulf X X) b p)
      (congrArg (Ideal.ofBits .f32 0x40000000#32 * ·) (cross_apply X S b p)))
    (classSumAlong_apply (mulf S S) b p)

end Cert.KernelIdeal.Tile

end
-- ==== Proof.TileBlocks.lean ====
/-
  What the region feeds each tile: the input windows' blocks as pieces of the three arguments.

  Tile t reads rows 2048·t … 2048·t + 2047 of the first argument, the same rows of the class-word column (the second
  argument recast from a vector to a column by the host line before the region), and the whole array of class vectors.
-/
import proofs.«408974_j22110491639941_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The input windows' block indices at tile t: the rows and the class words move with the tile, the class vectors stay. -/
theorem index_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Tile t's block of the rows is rows 2048·t … 2048·t + 2047 of the first argument. -/
theorem rows_apply (c : Dev nD) (t : Fin cfg0.N) (b d : Fin 2048) (k : S16384x2048.Idx)
    (hk0 : (k 0).val = t.val * 2048 + b.val) (hk1 : (k 1).val = d.val) :
    (iblk m c 0 t : Vec F S2048x2048 .f32) (ix2 b d) = (m ((c : Thread nD τ).loc main_arg0) : S16384x2048.Idx → Elt F .f32) k := by
  obtain ⟨e0, e1, -⟩ := index_in t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * b.val = (k 0).val; rw [e0, hk0]; omega
  | ⟨1, _⟩ => show win0_0.index t (1 : Fin 2) * 2048 + 1 * d.val = (k 1).val; rw [e1, hk1]; omega

/-- Every tile's block of the class vectors is the whole third argument. -/
theorem classes_apply (c : Dev nD) (t : Fin cfg0.N) (p : Fin 3) (d : Fin 2048) :
    (iblk m c 2 t : Vec F S3x2048 .f32) (ix2 p d) = (m ((c : Thread nD τ).loc main_arg2) : S3x2048.Idx → Elt F .f32) (ix2 p d) := by
  obtain ⟨-, -, -, -, e0, e1⟩ := index_in t
  unfold iblk
  rw [View.read_apply]
  show V m c main_arg2 _ = _
  rw [V_main_arg2]
  refine congrArg _ (funext fun a => Fin.ext ?_)
  match a with
  | ⟨0, _⟩ => show win0_2.index t (0 : Fin 2) * 3 + 1 * p.val = p.val; rw [e0]; omega
  | ⟨1, _⟩ => show win0_2.index t (1 : Fin 2) * 2048 + 1 * d.val = d.val; rw [e1]; omega

/-- The class words enter the region as a column: the second argument recast from [16384] to [16384, 1]. -/
theorem column_eq (c : Dev nD) : (V m c main_v0 : S16384x1.Idx → Elt F .i32)
    = shapeCast S16384x1 (m ((c : Thread nD τ).loc main_arg1)) shapeCasts_S16384_S16384x1 := by
  dsimp only [V, V0]
  simp only [hostOps0, List.flatten_cons, List.flatten_nil, List.append_nil]
  after_results
  rfl

/-- Tile t's block of the class words is words 2048·t … 2048·t + 2047 of the second argument. -/
theorem words_apply (c : Dev nD) (t : Fin cfg0.N) (b : Fin 2048) (k : S16384.Idx)
    (hk : (k 0).val = t.val * 2048 + b.val) :
    (iblk m c 1 t : Vec F S2048x1 .i32) (ix2 b (0 : Fin 1)) = (m ((c : Thread nD τ).loc main_arg1) : S16384.Idx → Elt F .i32) k := by
  obtain ⟨-, -, e0, e1, -⟩ := index_in t
  unfold iblk
  rw [View.read_apply]
  show V m c main_v0 _ = _
  rw [column_eq]
  refine shapeCast_apply _ _ _ k ?_
  rw [Shape.rowMajor_val_one, Shape.rowMajor_val_two, hk]
  show t.val * 2048 + b.val = (win0_1.index t (0 : Fin 2) * 2048 + 1 * b.val) * 1 + (win0_1.index t (1 : Fin 2) * 1 + 1 * 0)
  rw [e0, e1]; omega

end Cert.KernelIdeal.Blocks
end
-- ==== Proof.ReferenceTerm.lean ====
/-
  The reference's masked squared distance read at an index: at row b and class p it is
      (0 + ∑_d (x(b,d) − s(p,d))²) · [pol(b) = p],
  the difference of the two broadcast arrays squared and summed over the feature axis, times the one-hot entry.
-/
import proofs.«408974_j22110491639941_3_alg».proof.Proof.Gen.ReferenceIdeal.Read
import Idealize.ShloMosaic.Lib.ValueIdx

noncomputable section

open Idealize.ShloMosaic Idealize.ShloMosaic.ValueIdx

namespace Cert.ReferenceIdeal.Hand

open Cert.ReferenceIdeal Cert.ReferenceIdeal.Gen Cert.ReferenceIdeal.Read

/-- Through the two broadcasts of the first operand, element (b, p, k) reads x at (b, k). -/
private theorem idx_x (b : Fin 16384) (p : Fin 3) (k : Fin 2048) :
    idx_main_v0 (idx_main_v2 (idx_main_v6 (ix2 b p) k)) = ix2 b k :=
  funext fun a => Fin.ext (by match a with | ⟨0, _⟩ => rfl | ⟨1, _⟩ => rfl)

/-- Through the two broadcasts of the second operand, element (b, p, k) reads s at (p, k). -/
private theorem idx_s (b : Fin 16384) (p : Fin 3) (k : Fin 2048) :
    idx_main_v1 (idx_main_v3 (idx_main_v6 (ix2 b p) k)) = ix2 p k :=
  funext fun a => Fin.ext (by match a with | ⟨0, _⟩ => rfl | ⟨1, _⟩ => rfl)

/-- Through the two broadcasts of the labels, element (b, p) reads the label of row b. -/
private theorem idx_l (b : Fin 16384) (p : Fin 3) :
    idx_main_call0_v0 (idx_main_call0_v2 (ix2 b p)) = ix1 b :=
  funext fun a => Fin.ext (by match a with | ⟨0, _⟩ => rfl)

/-- The squared difference at (b, p, k). -/
private theorem sq_term (x0 : FVec Ideal S16384x2048 .f32) (x2 : FVec Ideal S3x2048 .f32) (b : Fin 16384) (p : Fin 3) (k : Fin 2048) :
    val_main_v5 (F := Ideal) x0 x2 (idx_main_v6 (ix2 b p) k)
      = (x0 (ix2 b k) - x2 (ix2 p k)) * (x0 (ix2 b k) - x2 (ix2 p k)) := by
  rw [val_main_v5_apply, val_main_v4_apply, val_main_v2_apply, val_main_v0_apply, val_main_v3_apply, val_main_v1_apply,
    idx_x, idx_s, Ideal.mulf_def, Ideal.subf_def]

/-- The one-hot entry at (b, p): the label of row b compared with the class number p. -/
private theorem mask_term (x1 : IVec S16384 32) (b : Fin 16384) (p : Fin 3) :
    val_main_v7 (F := Ideal) x1 (ix2 b p)
      = FloatOps.uitofp (F := Ideal) .f32 (IntOp.cmpi .eq (x1 (ix1 b)) (BitVec.ofNat 32 p.val)) := by
  rw [val_main_v7_apply, val_main_call0_v4_apply, val_main_call0_v2_apply, val_main_call0_v0_apply,
    val_main_call0_v3_apply, val_main_call0_v1_apply, idx_l]

/-- The reference's masked squared distance at row b and class p. -/
theorem masked_apply (x0 : FVec Ideal S16384x2048 .f32) (x1 : IVec S16384 32) (x2 : FVec Ideal S3x2048 .f32) (b : Fin 16384) (p : Fin 3) :
    val_main_v8 (F := Ideal) x0 x1 x2 (ix2 b p)
      = ((0 : EReal) + ∑ d : Fin 2048, (x0 (ix2 b d) - x2 (ix2 p d)) * (x0 (ix2 b d) - x2 (ix2 p d)))
        * FloatOps.uitofp (F := Ideal) .f32 (IntOp.cmpi .eq (x1 (ix1 b)) (BitVec.ofNat 32 p.val)) := by
  -- the product of the reduced sum and the one-hot entry; the sum's initial value is the zero word
  rw [val_main_v8_apply, val_main_v6_apply, mask_term, val_main_cst_apply, Ideal.mulf_def, Ideal.ofBits_def,
    Ideal.ofBits_zero_f32]
  exact congrArg (· * _) (congrArg (0 + ·) (Finset.sum_congr rfl fun k _ => sq_term x0 x2 b p k))

end Cert.ReferenceIdeal.Hand

end
-- ==== Proof.SquareExpansion.lean ====
/-
  The algebra that joins the two sides, over the extended reals.

  For finite reals x_d and s_d the squared distance ∑_d (x_d − s_d)² is (∑_d x_d² − 2·∑_d x_d s_d) + ∑_d s_d²:
  one side squares the difference, the other expands it and sums the three parts apart. The law is an identity of real
  numbers (distributivity, which fails at the infinities), so it is stated for entries that are coercions of reals and
  proved by pushing the coercion outward and closing in ℝ.

  Also here: a sum over N = T·B consecutive positions taken as T blocks of B, the re-indexing between a sum over all rows
  of an array and the same sum taken tile by tile.
-/
import Mathlib.Data.EReal.Operations
import Mathlib.Algebra.BigOperators.Fin
import Mathlib.Algebra.BigOperators.Ring.Finset
import Mathlib.Logic.Equiv.Fin.Basic
import Mathlib.Tactic.Ring

open scoped BigOperators

namespace Cert.SquareExpansion

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ∑ (x − s)² = (∑ x² − 2 ∑ x s) + ∑ s² for real entries, read in the extended reals. -/
theorem sum_sq_sub {ι : Type*} [Fintype ι] (x s : ι → ℝ) :
    (∑ d, (x d : EReal) * (x d : EReal) - ((2 : ℝ) : EReal) * ∑ d, (x d : EReal) * (s d : EReal))
        + ∑ d, (s d : EReal) * (s d : EReal)
      = ∑ d, ((x d : EReal) - (s d : EReal)) * ((x d : EReal) - (s d : EReal)) := by
  simp only [← EReal.coe_mul, ← EReal.coe_sub, ← coe_sum, ← EReal.coe_add]
  congr 1
  rw [Finset.mul_sum, ← Finset.sum_sub_distrib, ← Finset.sum_add_distrib]
  exact Finset.sum_congr rfl fun d _ => by ring

/-- A sum over N = T·B positions, block by block: block t holds the positions t·B … t·B + B − 1. -/
theorem sum_blocks {β : Type*} [AddCommMonoid β] {T B N : ℕ} (h : T * B = N) (f : Fin N → β) :
    ∑ r : Fin N, f r
      = ∑ t : Fin T, ∑ b : Fin B, f ⟨t.val * B + b.val, by
          have := t.isLt; have := b.isLt
          calc t.val * B + b.val < t.val * B + B := by omega
            _ = (t.val + 1) * B := by ring
            _ ≤ T * B := Nat.mul_le_mul_right B (by omega)
            _ = N := h⟩ := by
  subst h
  rw [← (finProdFinEquiv (m := T) (n := B)).sum_comp, Fintype.sum_prod_type]
  refine Finset.sum_congr rfl fun t _ => Finset.sum_congr rfl fun b _ => congrArg f (Fin.ext ?_)
  show b.val + B * t.val = t.val * B + b.val
  rw [Nat.mul_comm]; omega

end Cert.SquareExpansion
-- ==== Proof.Bridge.lean ====
/-
  Kernel against reference, as numbers.

  The kernel's result array holds, in entry (0, 0) of each tile's block, the tile's sum over its 2048 rows and 3 classes of
      ((∑_d x² − 2·∑_d x·s) + ∑_d s²) · [pol = p],
  and zeros elsewhere; the host adds all entries. The reference adds, over all 16384 rows and 3 classes,
      (∑_d (x − s)²) · [pol = p].
  For real (finite) inputs each term of the one is the term of the other (the square of a difference expanded, which is
  where finiteness is used), the eight tiles' rows are the 16384 rows taken 2048 at a time, and a block's zeros add
  nothing: so the two totals are equal, and with them the two results, since both programs then add the same three
  squared cosine terms in the same order.
-/
import proofs.«408974_j22110491639941_3_alg».proof.Proof.KernelResult
import proofs.«408974_j22110491639941_3_alg».proof.Proof.TileTerm
import proofs.«408974_j22110491639941_3_alg».proof.Proof.TileDistance
import proofs.«408974_j22110491639941_3_alg».proof.Proof.TileBlocks
import proofs.«408974_j22110491639941_3_alg».proof.Proof.ReferenceTerm
import proofs.«408974_j22110491639941_3_alg».proof.Proof.SquareExpansion

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Hand Cert.KernelIdeal.Tile Cert.KernelIdeal.Blocks

/-- The kernel's literal 2.0 is the real number 2. -/
theorem two_bits : Ideal.ofBits .f32 0x40000000#32 = ((2 : ℝ) : EReal) := by
  simp [Ideal.ofBits, Ideal.ieee, -EReal.coe_mul]
  norm_num

/-- One masked term, kernel against reference: for real entries the expanded distance is the squared difference summed,
    and the two masks compare the same class word with the same class number. -/
theorem term_eq (x0 : FVec Ideal S16384x2048 .f32) (x1 : IVec S16384 32) (x2 : FVec Ideal S3x2048 .f32)
    (h0 : ∀ i : S16384x2048.Idx, ∃ r : ℝ, x0 i = (r : EReal)) (h2 : ∀ i : S3x2048.Idx, ∃ r : ℝ, x2 i = (r : EReal))
    (X : FVec Ideal S2048x2048 .f32) (S : FVec Ideal S3x2048 .f32) (P : IVec S2048x1 32) (r : Fin 16384) (b : Fin 2048) (p : Fin 3)
    (hX : ∀ d : Fin 2048, X (ix2 b d) = x0 (ix2 r d)) (hS : ∀ d : Fin 2048, S (ix2 p d) = x2 (ix2 p d))
    (hP : P (ix2 b (0 : Fin 1)) = x1 (ix1 r)) :
    dist X S (ix2 b p) * mask P (ix2 b p) = Cert.ReferenceIdeal.Read.val_main_v8 (F := Ideal) x0 x1 x2 (ix2 r p) := by
  rw [dist_apply, mask_apply, Cert.ReferenceIdeal.Hand.masked_apply, hP]
  refine congrArg (· * _) ?_
  choose f0 hf0 using h0
  choose f2 hf2 using h2
  simp only [hX, hS, hf0, hf2]
  rw [two_bits, zero_add]
  exact Cert.SquareExpansion.sum_sq_sub (fun d => f0 (ix2 r d)) (fun d => f2 (ix2 p d))

variable (m : (ℓ : Loc nD τ sig) → Buf (Elt Ideal) ℓ)

/-- Tile number t as a point of the region's grid. -/
def pt (t : Fin 8) : Fin cfg0.N := ⟨t.val, lt_of_lt_of_eq t.isLt N_0.symm⟩

theorem tileBlock_congr (c : Dev nD) {t t' : Fin cfg0.N} (ht : t = t') {y y' : S8x128.Idx} (hy : y = y') :
    tileBlock m c t y = tileBlock m c t' y' := by subst ht; subst hy; rfl

/-- The assembled array summed over all its entries is the sum, over the eight tiles, of each tile's block summed. -/
theorem assembled_sum (c : Dev nD) :
    ∑ j : S64x128.Idx, assembled m c j = ∑ t : Fin 8, ∑ y : S8x128.Idx, tileBlock m c (pt t) y := by
  rw [sum_idx2, Cert.SquareExpansion.sum_blocks (T := 8) (B := 8) (N := 64) rfl]
  refine Finset.sum_congr rfl fun t _ => ?_
  rw [sum_idx2]
  refine Finset.sum_congr rfl fun a _ => Finset.sum_congr rfl fun l _ => ?_
  unfold assembled
  have ha : a.val < 8 := a.isLt
  exact tileBlock_congr m c (Fin.ext (by show (t.val * 8 + a.val) / 8 = t.val; omega))
    (funext fun ax => Fin.ext (by
      match ax with
      | ⟨0, _⟩ => show (t.val * 8 + a.val) % 8 = a.val; omega
      | ⟨1, _⟩ => rfl))

/-- THE TWO TOTALS AGREE: for real inputs, all entries of the kernel's result array added up (from zero) is the reference's
    sum of masked squared distances over all rows and classes (from zero). -/
theorem total_eq_reference (c : Dev nD)
    (h0 : ∀ i : S16384x2048.Idx, ∃ r : ℝ, (m ((c : Thread nD τ).loc main_arg0) : S16384x2048.Idx → EReal) i = (r : EReal))
    (h2 : ∀ i : S3x2048.Idx, ∃ r : ℝ, (m ((c : Thread nD τ).loc main_arg2) : S3x2048.Idx → EReal) i = (r : EReal)) :
    Host.reduceAdd (F := Ideal) (assembled m c) (constant (F := Ideal) S_ .f32 0x00000000#32) reducesTo_S64x128_S_d0_1 h_S_
      = Cert.ReferenceIdeal.Read.val_main_v9 (F := Ideal) (m ((c : Thread nD τ).loc main_arg0)) (m ((c : Thread nD τ).loc main_arg1)) (m ((c : Thread nD τ).loc main_arg2)) := by
  funext i
  rw [Cert.ReferenceIdeal.Read.val_main_v9_apply]
  simp only [Host.reduceAdd, Ideal.hostReduceAdd_def]
  rw [Ideal.hostReduceAdd_total reducesTo_S64x128_S_d0_1 (fun b => b.elim0)]
  refine congrArg₂ (· + ·) rfl ?_
  rw [assembled_sum, sum_idx2, Cert.SquareExpansion.sum_blocks (T := 8) (B := 2048) (N := 16384) rfl]
  refine Finset.sum_congr rfl fun t _ => ?_
  unfold tileBlock
  rw [pay_sum]
  refine Finset.sum_congr rfl fun b _ => Finset.sum_congr rfl fun p _ => ?_
  exact term_eq _ _ _ h0 h2 _ _ _ ⟨t.val * 2048 + b.val, by have := t.isLt; have := b.isLt; omega⟩ b p
    (fun d => rows_apply m c (pt t) b d _ rfl rfl)
    (fun d => classes_apply m c (pt t) p d)
    (words_apply m c (pt t) b _ rfl)

/-- THE KERNEL'S RESULT IS THE REFERENCE'S FUNCTION of the kernel's own arguments: the two totals agree, and the squared
    cosine terms are added to them in the same order by the same host lines. -/
theorem value_eq (c : Dev nD)
    (h0 : ∀ i : S16384x2048.Idx, ∃ r : ℝ, (m ((c : Thread nD τ).loc main_arg0) : S16384x2048.Idx → EReal) i = (r : EReal))
    (h2 : ∀ i : S3x2048.Idx, ∃ r : ℝ, (m ((c : Thread nD τ).loc main_arg2) : S3x2048.Idx → EReal) i = (r : EReal)) :
    tailOf (F := Ideal) (assembled m c) (m ((c : Thread nD τ).loc main_arg2))
      = Cert.ReferenceIdeal.Read.val_main_v57 (F := Ideal) (m ((c : Thread nD τ).loc main_arg0)) (m ((c : Thread nD τ).loc main_arg1)) (m ((c : Thread nD τ).loc main_arg2)) := by
  unfold tailOf Cert.ReferenceIdeal.Read.val_main_v57 Cert.ReferenceIdeal.Read.val_main_v55 Cert.ReferenceIdeal.Read.val_main_v53
  rw [total_eq_reference m c h0 h2]

end Cert.KernelIdeal.Bridge
end
-- ==== Proof.FiniteInputs.lean ====
/-
  The precondition read back: if both float inputs pass the test |x| < +∞ at every entry, every entry of both is a
  real number.
-/
import proofs.«408974_j22110491639941_3_alg».proof.Pre_finite_inputs
import proofs.«408974_j22110491639941_3_alg».proof.Proof.Gen.Pre_finite_inputs
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.FiniteInputs

open Cert.Pre_finite_inputs Cert.Pre_finite_inputs.Gen

private instance : Subsingleton S_.Idx := ⟨fun a b => funext fun d => d.elim0⟩

/-- The +∞ word of f32 is the top extended real. -/
private theorem inf_bits : Ideal.ofBits .f32 0x7F800000#32 = (⊤ : EReal) := by
  simp [Ideal.ofBits, Ideal.ieee]

/-- A one-bit word made from a decision is 1 only when the decided proposition holds. -/
private theorem ofBool_decide_eq_one {P : Prop} [Decidable P] (e : BitVec.ofBool (decide P) = 1#1) : P := by
  by_contra hP
  rw [decide_eq_false hP] at e
  exact absurd e (by decide)

/-- An extended real whose absolute value max a (-a) tests below +∞ is a real number: at ⊥ and at ⊤ that maximum is ⊤. -/
private theorem real_of_abs_lt (a : EReal)
    (e : FloatOps.cmpf (F := Ideal) (φ := .f32) .olt (FloatOps.hostAbsf (F := Ideal) (φ := .f32) a)
      (Ideal.ofBits .f32 0x7F800000#32) = 1#1) :
    ∃ r : ℝ, a = (r : EReal) := by
  rw [Ideal.hostAbsf_def, Ideal.absf_def, Ideal.cmpf_def, inf_bits] at e
  have hlt : max a (-a) < ⊤ := ofBool_decide_eq_one e
  induction a using EReal.rec with
  | bot => exact absurd hlt (by simp)
  | coe r => exact ⟨r, rfl⟩
  | top => exact absurd hlt (by simp)

/-- Under the precondition every entry of the two float inputs is (the coercion of) a real number. -/
theorem real_of_pre (x0 : FVec Ideal S16384x2048 .f32) (x1 : IVec S16384 32) (x2 : FVec Ideal S3x2048 .f32)
    (h : Cert.Pre_finite_inputs.fn (F := Ideal) x0 x1 x2 = fun _ => 1#1) :
    (∀ i : S16384x2048.Idx, ∃ r : ℝ, x0 i = (r : EReal)) ∧ (∀ i : S3x2048.Idx, ∃ r : ℝ, x2 i = (r : EReal)) := by
  -- the predicate at its one index: the conjunction of the two all-reductions
  have h0 := congrFun h ValueIdx.ix0
  dsimp only [Cert.Pre_finite_inputs.fn] at h0
  obtain ⟨ha, hb⟩ := IntOp.andi_eq_one.1 h0
  -- each all-reduction by `and` that is 1 had a 1 at every entry; an entry's test is |x| < +∞
  exact ⟨fun i => real_of_abs_lt (x0 i) (Host.reduce_andi_all _ _ _ _ ValueIdx.ix0 ha i),
    fun i => real_of_abs_lt (x2 i) (Host.reduce_andi_all _ _ _ _ ValueIdx.ix0 hb i)⟩

end Cert.FiniteInputs

end
-- ==== Proof.lean ====
/-
  The certificate's claims assembled.

  Both programs compute   ∑_{b,p} ‖x_b − s_p‖² · [pol_b = p]  +  cos₀₁² + cos₀₂² + cos₁₂²   of the same three arguments:
  the kernel tile by tile through the expansion ‖x‖² − 2 x·s + ‖s‖², the reference through the difference squared. Under
  the precondition the inputs are real numbers, for which the two agree (Proof/Bridge.lean); the cosine terms are the
  same host lines in both programs and are never opened. The three frames are the programs' runs with the results
  dropped; the idealization rewrote nothing, so `preserves` is trivial.
-/
import proofs.«408974_j22110491639941_3_alg».proof.Defs
import proofs.«408974_j22110491639941_3_alg».proof.Proof.Gen.Kernel
import proofs.«408974_j22110491639941_3_alg».proof.Proof.Gen.Kernel.Skeleton
import proofs.«408974_j22110491639941_3_alg».proof.Proof.Gen.Kernel.Launch
import proofs.«408974_j22110491639941_3_alg».proof.Proof.Gen.Kernel.Points
import proofs.«408974_j22110491639941_3_alg».proof.Proof.Gen.Kernel.Frame
import proofs.«408974_j22110491639941_3_alg».proof.Proof.Gen.KernelIdeal
import proofs.«408974_j22110491639941_3_alg».proof.Proof.Gen.KernelIdeal.Skeleton
import proofs.«408974_j22110491639941_3_alg».proof.Proof.Gen.KernelIdeal.Launch
import proofs.«408974_j22110491639941_3_alg».proof.Proof.Gen.KernelIdeal.Points
import proofs.«408974_j22110491639941_3_alg».proof.Proof.Gen.KernelIdeal.Frame
import proofs.«408974_j22110491639941_3_alg».proof.Proof.Gen.ReferenceIdeal
import proofs.«408974_j22110491639941_3_alg».proof.Proof.Gen.Pre_finite_inputs
import proofs.«408974_j22110491639941_3_alg».proof.Proof.Gen.ReferenceIdeal.Run
import proofs.«408974_j22110491639941_3_alg».proof.Proof.Gen.ReferenceIdeal.Read
import proofs.«408974_j22110491639941_3_alg».proof.Proof.KernelResult
import proofs.«408974_j22110491639941_3_alg».proof.Proof.Bridge
import proofs.«408974_j22110491639941_3_alg».proof.Proof.FiniteInputs
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end at the reference's function of those
    arguments: the reference by its run, the kernel by its run and the equality of the two totals for real inputs. -/
theorem algebraic : Cert.algebraic_KernelIdeal_ReferenceIdeal := by
  intro m ρ m' ρ' hpre hagree
  have hreal := fun c => Cert.FiniteInputs.real_of_pre _ _ _ (hpre c)
  refine ⟨fun c => Cert.ReferenceIdeal.Read.val_main_v57 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Bridge.value_eq m c (hreal c).1 (hreal c).2), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v57_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
